-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x8193 : Shape := ⟨2, ![4096, 8193]⟩
abbrev S4096x8193x3 : Shape := ⟨3, ![4096, 8193, 3]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8193 : S_.BroadcastsInDim S4096x8193 (![] : Fin 0 → Fin S4096x8193.rank)
  reducesTo_S4096x8193_S_d0_1 : S4096x8193.ReducesTo [0, 1] S_
  bcast_S_S4096x8193x3 : S_.BroadcastsInDim S4096x8193x3 (![] : Fin 0 → Fin S4096x8193x3.rank)
  reducesTo_S4096x8193x3_S_d0_1_2 : S4096x8193x3.ReducesTo [0, 1, 2] S_

variable [Facts]

def fn {F : FTy → Type} [FloatOps F] (main_arg0 : FVec F S4096 .f32) (main_arg1 : FVec F S4096x8193 .f32) (main_arg2 : FVec F S4096x8193x3 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8193 .f32 := Host.absf main_arg1
  let main_cst_0 : FVec F S_ .f32 := constant S_ .f32 0x7F800000#32
  let main_v5 : FVec F S4096x8193 .f32 := broadcastInDim S4096x8193 ![] bcast_S_S4096x8193 main_cst_0
  let main_v6 : IVec S4096x8193 1 := cmpf .olt main_v4 main_v5
  let main_c_1 : IVec S_ 1 := constantI S_ 1 1#1
  let main_v7 : IVec S_ 1 := (fun x v => Host.reduce IntOp.andi x v reducesTo_S4096x8193_S_d0_1 h_S_) main_v6 main_c_1
  let main_v8 : IVec S_ 1 := andi main_v3 main_v7
  let main_v9 : FVec F S4096x8193x3 .f32 := Host.absf main_arg2
  let main_cst_2 : FVec F S_ .f32 := constant S_ .f32 0x7F800000#32
  let main_v10 : FVec F S4096x8193x3 .f32 := broadcastInDim S4096x8193x3 ![] bcast_S_S4096x8193x3 main_cst_2
  let main_v11 : IVec S4096x8193x3 1 := cmpf .olt main_v9 main_v10
  let main_c_3 : IVec S_ 1 := constantI S_ 1 1#1
  let main_v12 : IVec S_ 1 := (fun x v => Host.reduce IntOp.andi x v reducesTo_S4096x8193x3_S_d0_1_2 h_S_) main_v11 main_c_3
  let main_v13 : IVec S_ 1 := andi main_v8 main_v12
  main_v13
-- ==== Kernel.lean ====
abbrev S4096 : Shape := ⟨1, ![4096]⟩
abbrev S4096x8193 : Shape := ⟨2, ![4096, 8193]⟩
abbrev S4096x8193x3 : Shape := ⟨3, ![4096, 8193, 3]⟩
abbrev S4096x1 : Shape := ⟨2, ![4096, 1]⟩
abbrev S4096x1x3 : Shape := ⟨3, ![4096, 1, 3]⟩
abbrev S4096x3 : Shape := ⟨2, ![4096, 3]⟩
abbrev S1x1 : Shape := ⟨2, ![1, 1]⟩
abbrev S1x4096 : Shape := ⟨2, ![1, 4096]⟩
abbrev S1 : Shape := ⟨1, ![1]⟩
abbrev S_ : Shape := ⟨0, ![]⟩

abbrev nBuf : Space → Nat
  | .hbm => 9
  | .vmem => 4
  | .smem => 0
  | _ => 0

abbrev bufTy : (tb : Table) → Fin (tcTables nBuf tb) → BufTy
  | .hbm, ⟨0, _⟩ => ⟨S4096, .f32⟩
  | .hbm, ⟨1, _⟩ => ⟨S4096x8193, .f32⟩
  | .hbm, ⟨2, _⟩ => ⟨S4096x8193x3, .f32⟩
  | .hbm, ⟨3, _⟩ => ⟨S4096x1, .f32⟩
  | .hbm, ⟨4, _⟩ => ⟨S4096, .f32⟩
  | .hbm, ⟨5, _⟩ => ⟨S4096x1x3, .f32⟩
  | .hbm, ⟨6, _⟩ => ⟨S4096x3, .f32⟩
  | .hbm, ⟨7, _⟩ => ⟨S1x1, .f32⟩
  | .hbm, ⟨8, _⟩ => ⟨S_, .f32⟩
  | .local _ .vmem, ⟨0, _⟩ => ⟨S4096, .f32⟩
  | .local _ .vmem, ⟨1, _⟩ => ⟨S4096, .f32⟩
  | .local _ .vmem, ⟨2, _⟩ => ⟨S4096x3, .f32⟩
  | .local _ .vmem, ⟨3, _⟩ => ⟨S1x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S4096x8193_S4096x1_0_8192 : S4096x8193.Slices ![0, 8192] S4096x1
  shapeCasts_S4096x1_S4096 : S4096x1.ShapeCasts S4096
  slices_S4096x8193x3_S4096x1x3_0_8192_0 : S4096x8193x3.Slices ![0, 8192, 0] S4096x1x3
  shapeCasts_S4096x1x3_S4096x3 : S4096x1x3.ShapeCasts S4096x3
  inb_S4096_S4096_0 : ∀ a, (![0] : Fin 1 → Nat) a + S4096.size a ≤ S4096.size a
  h_S4096 : 0 < S4096.numel
  shapeCasts_S4096_S4096 : S4096.ShapeCasts S4096
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  reduces_S4096x3_S4096 : S4096x3.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S4096.size a
  hwx0_0 : ∀ i : grid0.Coords, EltTy.bits .f32 = 32 ∨ (Rect.block (s := S4096) S4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S4096x3.size a
  hwx0_2 : ∀ i : grid0.Coords, EltTy.bits .f32 = 32 ∨ (Rect.block (s := S4096x3) S4096x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096 : Shape := ⟨1, ![4096]⟩
abbrev S4096x8193 : Shape := ⟨2, ![4096, 8193]⟩
abbrev S4096x8193x3 : Shape := ⟨3, ![4096, 8193, 3]⟩
abbrev S4096x1x3 : Shape := ⟨3, ![4096, 1, 3]⟩
abbrev S4096x3 : Shape := ⟨2, ![4096, 3]⟩
abbrev S_ : Shape := ⟨0, ![]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x8193, .f32⟩
  | .hbm, ⟨2, _⟩ => ⟨S4096x8193x3, .f32⟩
  | .hbm, ⟨3, _⟩ => ⟨S4096, .f32⟩
  | .hbm, ⟨4, _⟩ => ⟨S4096x1x3, .f32⟩
  | .hbm, ⟨5, _⟩ => ⟨S4096x3, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  slices_S4096x8193x3_S4096x1x3_0_8192_0 : S4096x8193x3.Slices ![0, 8192, 0] S4096x1x3
  shapeCasts_S4096x1x3_S4096x3 : S4096x1x3.ShapeCasts S4096x3
  reducesTo_S4096x3_S4096_d1 : S4096x3.ReducesTo [1] S4096
  h_S_ : 0 < S_.numel
  slices_S4096x8193_S4096x1_0_8192 : S4096x8193.Slices ![0, 8192] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Spec.lean ====
/-
  The number both programs compute, stated once over plain index functions.

  For a vector `x` of 4096 extended reals, a weight column `w` of the same length and a coefficient table `cs`
  with three entries per row, row `i` contributes
      w i · ( x i · σ(x i)  +  sin(x i) · (cs i 0 + cs i 1 + cs i 2) ),
  where σ(t) = 1 / (1 + e^(−t)) is the logistic function (so `x · σ(x)` is SiLU), and the result is the sum of the
  4096 contributions. Sums of extended reals are sums in a commutative monoid, so the order in which either
  program adds the rows, or the three coefficients of a row, does not matter.
-/
import Idealize.ShloMosaic.PureOps.Ideal
import Idealize.ShloMosaic.PureOps.Ideal.Laws
import Idealize.ShloMosaic.Lib.ValueIdx

noncomputable section

namespace Cert.KanSpec

open Idealize.ShloMosaic Idealize.ShloMosaic.ValueIdx

/-- A rank-one multi-index of extent `n` is a number below `n`. -/
def idxEquiv1 {n : Nat} : (⟨1, ![n]⟩ : Shape).Idx ≃ Fin n where
  toFun j := j 0
  invFun := ix1
  left_inv j := (eq_ix1 j).symm
  right_inv _ := rfl

/-- A sum over rank-one multi-indices is the sum over the numbers below the extent. -/
theorem sum_idx1 {M : Type*} [AddCommMonoid M] {n : Nat} (f : (⟨1, ![n]⟩ : Shape).Idx → M) :
    ∑ j, f j = ∑ k : Fin n, f (ix1 k) :=
  (Equiv.sum_comp (idxEquiv1 (n := n)).symm f).symm

/-- Row `i`'s contribution: the weight times SiLU of the input plus the sine of the input times the row's
    coefficient sum. -/
def row (x w : (⟨1, ![4096]⟩ : Shape).Idx → EReal) (cs : (⟨2, ![4096, 3]⟩ : Shape).Idx → EReal) (i : Fin 4096) : EReal :=
  w (ix1 i) * (x (ix1 i) * Ideal.logistic (x (ix1 i)) + Ideal.sin (x (ix1 i)) * ∑ g : Fin 3, cs (ix2 i g))

/-- The result: all rows' contributions added. -/
def total (x w : (⟨1, ![4096]⟩ : Shape).Idx → EReal) (cs : (⟨2, ![4096, 3]⟩ : Shape).Idx → EReal) : EReal :=
  ∑ i : Fin 4096, row x w cs i

/-- The single-precision pattern of 1.0 denotes the number one. -/
theorem one_f32 : Ideal.ofBits .f32 0x3F800000#32 = 1 := by
  simp [Ideal.ofBits, Ideal.ieee, -EReal.coe_mul]; norm_num

/-- The logistic function spelt out with the quotient of the extended reals: 1 / (1 + e^(−t)). -/
theorem logistic_eq (t : EReal) : Ideal.logistic t = Ideal.div 1 (1 + Ideal.exp (-t)) := rfl

end Cert.KanSpec

end
-- ==== Proof.KernelPayload.lean ====
/-
  What the kernel body stores, at the extended reals.

  The body loads the input vector, the weight column and the [4096, 3] coefficient block, adds each row's three
  coefficients (a lane reduction over the short axis), forms  w · (x · σ(x) + sin x · rowsum)  lane by lane, views
  the 4096 products as one row [1, 4096], adds that row up, and stores the single number as a [1, 1] block. Read at
  its one index the stored block is therefore the sum over all rows of the row contribution: the specification's
  `total`.
-/
import proofs.«153209_j27101243638027_1_alg».proof.Proof.Gen.KernelIdeal.Skeleton
import proofs.«153209_j27101243638027_1_alg».proof.Proof.Spec
import Idealize.ShloMosaic.Lib.Pipeline.Value
import Idealize.ShloMosaic.PureOps.Ideal.Laws
import Idealize.ShloMosaic.Lib.ValueIdx

noncomputable section

open Idealize.ShloMosaic Idealize.ShloMosaic.ValueIdx

namespace Cert.KernelIdeal.Hand

open Cert.KernelIdeal Cert.KernelIdeal.Gen

/-- A row's coefficient sum: the lane reduction of the [4096, 3] block over its short axis, read at row `i`, is
    the sum of that row's three entries (the starting value of the reduction is zero, and the cast before it keeps
    the shape). -/
theorem coeff_sum (cs : FVec Ideal S4096x3 .f32) (h1 : S4096x3.ShapeCasts S4096x3) (h2 : S4096x3.Reduces [1] S4096)
    (hφ : FKind.Formats .f32) (hacc : (0x00000000#32 : BitVec 32) = FKind.add.neutral .f32 hφ) (i : Fin 4096) :
    multiReduction .add [1] S4096 (shapeCast S4096x3 cs h1) 0x00000000#32 h2 hφ hacc (ix1 i) = ∑ g : Fin 3, cs (ix2 i g) := by
  rw [shapeCast_self, Ideal.multiReduction_add_single]
  refine Finset.sum_congr rfl fun g _ => ?_
  exact congrArg cs (funext fun a => Fin.ext (by match a with | ⟨0, _⟩ => rfl | ⟨1, _⟩ => rfl))

/-- The end of the body: a vector `v` of 4096 numbers viewed as one row [1, 4096], that row added up into [1],
    recast to [1, 1], its one entry extracted, splatted to [1] and recast to [1, 1] again. Every index of [1, 1] is
    (0, 0) and every cast keeps the row-major position, so the result at any index is the sum of `v`'s entries:
    entry `k` of the row sits at row-major position 0 · 4096 + k, which is `v`'s position `k`. -/
theorem lane_total (v : FVec Ideal S4096 .f32) (h1 : S4096.ShapeCasts S1x4096) (h2 : S1x4096.Reduces [1] S1)
    (hφ : FKind.Formats .f32) (hacc : (0x00000000#32 : BitVec 32) = FKind.add.neutral .f32 hφ)
    (h5 : S1.ShapeCasts S1x1) (h6 : ∀ a, (![0, 0] : Fin 2 → Nat) a < S1x1.size a) (j : S1x1.Idx) :
    shapeCast S1x1 (broadcast S1 (extractAt ![0, 0] (shapeCast S1x1 (multiReduction .add [1] S1 (shapeCast S1x4096 v h1) 0x00000000#32 h2 hφ hacc) h5) h6)) h5 j
      = ∑ k : Fin 4096, v (ix1 k) := by
  have hj0 : (j 0).val < 1 := (j 0).isLt
  have hj1 : (j 1).val < 1 := (j 1).isLt
  rw [shapeCast_apply _ h5 j (ix1 (0 : Fin 1)) (by rw [Shape.rowMajor_val_one, Shape.rowMajor_val_two]; show 0 = (j 0).val * 1 + (j 1).val; omega)]
  rw [broadcast_apply]
  unfold extractAt
  rw [shapeCast_apply _ h5 _ (ix1 (0 : Fin 1)) (by rw [Shape.rowMajor_val_one, Shape.rowMajor_val_two]; rfl)]
  rw [Ideal.multiReduction_add_single]
  refine Finset.sum_congr rfl fun k _ => ?_
  exact shapeCast_apply v h1 _ (ix1 k) (by rw [Shape.rowMajor_val_one, Shape.rowMajor_val_two]; show k.val = 0 * 4096 + k.val; omega)

/-- The stored block, at its one index, is the specification's total of the three loaded values: the outer
    reshapes and the row sum by `lane_total`, and lane `k` of the summed vector is row `k`'s contribution — the
    weight's cast keeps its shape, the logistic and the sine act lane by lane, the coefficient sum by `coeff_sum`. -/
theorem pay_eq (x w : Vec Ideal S4096 .f32) (cs : Vec Ideal S4096x3 .f32) (j : S1x1.Idx) :
    k0_pay1 (F := Ideal) x w cs j = Cert.KanSpec.total x w cs := by
  unfold k0_pay1
  dsimp only
  refine (lane_total _ _ _ _ _ _ _ j).trans ?_
  unfold Cert.KanSpec.total
  refine Finset.sum_congr rfl fun k _ => ?_
  exact congrArg₂ (fun a s => a * (x (ix1 k) * Ideal.logistic (x (ix1 k)) + Ideal.sin (x (ix1 k)) * s))
    (congrFun (shapeCast_self w _) (ix1 k)) (coeff_sum cs _ _ _ _ k)

end Cert.KernelIdeal.Hand

end
-- ==== Proof.KernelValue.lean ====
/-
  What the kernel's program ends with, at the extended reals.

  The program slices the last column out of the weight matrix and out of the coefficient table on the host, calls
  the kernel once (a grid of one point: every operand's block is its whole array), and views the kernel's [1, 1]
  result as a scalar. So the block the body loads from each window is the window's array; the body's one store fills
  the result's staging buffer with the total of what it loaded; the one write-back copies that to the [1, 1] array,
  whose only index the write-back covers; and the host reshape after the call reads that number as the scalar.
  The three arguments end as launched.
-/
import proofs.«153209_j27101243638027_1_alg».proof.Proof.Gen.KernelIdeal.Frame
import proofs.«153209_j27101243638027_1_alg».proof.Proof.KernelPayload
import proofs.«153209_j27101243638027_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

section Arrays

variable {F : FTy → Type} [FloatOps F]
variable (m : (ℓ : Loc nD τ sig) → Buf (Elt F) ℓ)

/-- The weight column as the region finds it: the last column of the weight matrix, sliced out and flattened by the
    two host operations before the call. -/
theorem V_wcol (c : Dev nD) : (V m c main_v1 : S4096.Idx → Elt F .f32)
    = shapeCast _ (extractStridedSlice S4096x1 ![0, 8192] (m ((c : Thread nD τ).loc main_arg1)) slices_S4096x8193_S4096x1_0_8192) shapeCasts_S4096x1_S4096 := by
  show StableHlo.after hostOps0 (fun b => m (c, b)) (Proc.devRef .tc main_v1) = _
  after_results
  rfl

/-- The coefficient block as the region finds it: the last column's three coefficients per row, likewise. -/
theorem V_ccol (c : Dev nD) : (V m c main_v3 : S4096x3.Idx → Elt F .f32)
    = shapeCast _ (extractStridedSlice S4096x1x3 ![0, 8192, 0] (m ((c : Thread nD τ).loc main_arg2)) slices_S4096x8193x3_S4096x1x3_0_8192_0) shapeCasts_S4096x1x3_S4096x3 := by
  show StableHlo.after hostOps0 (fun b => m (c, b)) (Proc.devRef .tc main_v3) = _
  after_results
  rfl

/-- The grid has one point and every window's block there is its whole array (block index zero on every axis,
    block extent the array's): so the block the body loads from is the array itself. -/
theorem iblk_x (c : Dev nD) (t : Fin cfg0.N) : (iblk m c 0 t : Vec F S4096 .f32) = V m c main_arg0 := by
  obtain rfl := fin_N0 t
  unfold iblk
  have hz' : (fun a => win0_0.index t0_0 a * main_arg0.ty.shape.size a) = fun _ => 0 := funext fun a => by fin_cases a <;> decide
  exact Memref.read_access_unit_zero (Elt F) main_arg0 hz' (fun a => by rw [congrFun hz' a]; simp) (V m c main_arg0)

theorem iblk_w (c : Dev nD) (t : Fin cfg0.N) : (iblk m c 1 t : Vec F S4096 .f32) = V m c main_v1 := by
  obtain rfl := fin_N0 t
  unfold iblk
  have hz' : (fun a => win0_1.index t0_0 a * main_v1.ty.shape.size a) = fun _ => 0 := funext fun a => by fin_cases a <;> decide
  exact Memref.read_access_unit_zero (Elt F) main_v1 hz' (fun a => by rw [congrFun hz' a]; simp) (V m c main_v1)

theorem iblk_c (c : Dev nD) (t : Fin cfg0.N) : (iblk m c 2 t : Vec F S4096x3 .f32) = V m c main_v3 := by
  obtain rfl := fin_N0 t
  unfold iblk
  have hz' : (fun a => win0_2.index t0_0 a * main_v3.ty.shape.size a) = fun _ => 0 := funext fun a => by fin_cases a <;> decide
  exact Memref.read_access_unit_zero (Elt F) main_v3 hz' (fun a => by rw [congrFun hz' a]; simp) (V m c main_v3)

end Arrays

section Value

variable (m : (ℓ : Loc nD τ sig) → Buf (Elt Ideal) ℓ) (ρ : Dev nD → PrngReg)

/-- The number the kernel ends with on core `c`: the specification's total of the input vector, the last weight
    column and the last column's coefficient block. -/
def result (c : Dev nD) : EReal :=
  Cert.KanSpec.total (m ((c : Thread nD τ).loc main_arg0))
    (shapeCast _ (extractStridedSlice S4096x1 ![0, 8192] (m ((c : Thread nD τ).loc main_arg1)) slices_S4096x8193_S4096x1_0_8192) shapeCasts_S4096x1_S4096)
    (shapeCast _ (extractStridedSlice S4096x1x3 ![0, 8192, 0] (m ((c : Thread nD τ).loc main_arg2)) slices_S4096x8193x3_S4096x1x3_0_8192_0) shapeCasts_S4096x1x3_S4096x3)

/-- What the body leaves in the result's [1, 1] staging buffer: its one store covers the buffer, and the stored
    value is the total of the three whole-buffer loads. -/
theorem out_eq (x w : Vec Ideal S4096 .f32) (cs : Vec Ideal S4096x3 .f32) :
    out0_3 (F := Ideal) x w cs = fun _ => Cert.KanSpec.total x w cs := by
  unfold out0_3
  rw [View.canon_unit_zero hz2]
  simp only [View.ld_unit_zero (S := S4096) hz1, View.ld_unit_zero (S := S4096x3) hz2]
  funext j
  exact pay_eq x w cs j

/-- What the one point writes back is the [1, 1] array holding `result`, read through the point's block (the whole
    array). -/
theorem flushed_eq (c : Dev nD) (t : Fin cfg0.N) (hf : (cfg0.win 3).flush t = true) :
    (dats m 0 c).flushed 3 t = ((cfg0.win 3).blk t).view.read (Elt Ideal) (fun _ => result m c) := by
  obtain rfl := fin_N0 t
  show (cfg0.win 3).cut (grid0.coords t0_0) ((dats m 0 c).after 3 t0_0) = _
  rw [after0_3, iblk_x, iblk_w, iblk_c, V_main_arg0, V_wcol, V_ccol, out_eq]
  have hz' : (fun a => win0_3.index t0_0 a * main_v4.ty.shape.size a) = fun _ => 0 := funext fun a => by fin_cases a <;> decide
  exact (Memref.read_access_unit_zero (Elt Ideal) main_v4 hz' (fun a => by rw [congrFun hz' a]; simp) (fun _ => result m c)).symm

/-- The one index (0, 0) of the result array lies in the one point's block. -/
theorem covered (i : S1x1.Idx) : ∃ t : Fin cfg0.N, (cfg0.win 3).flush t = true ∧ i ∈ ((cfg0.win 3).blk t).view.set := by
  refine ⟨t0_0, flush0_3 t0_0, ?_⟩
  show i ∈ ((View.whole main_v4).slice (win0_3.rect t0_0)).set
  rw [View.set_slice_whole, Rect.mem_set_unit]
  have h0 : (i 0).val < 1 := (i 0).isLt
  have h1 : (i 1).val < 1 := (i 1).isLt
  have e0 : win0_3.index t0_0 (0 : Fin 2) = 0 := by decide +kernel
  have e1 : win0_3.index t0_0 (1 : Fin 2) = 0 := by decide +kernel
  intro a
  match a with
  | ⟨0, _⟩ => show win0_3.index t0_0 (0 : Fin 2) * 1 ≤ (i 0).val ∧ (i 0).val < win0_3.index t0_0 (0 : Fin 2) * 1 + 1; omega
  | ⟨1, _⟩ => show win0_3.index t0_0 (1 : Fin 2) * 1 ≤ (i 1).val ∧ (i 1).val < win0_3.index t0_0 (1 : Fin 2) * 1 + 1; omega

/-- So the result array of the call ends holding `result` at its one index. -/
theorem final (c : Dev nD) : (dats m 0 c).arrAt 3 cfg0.N = fun _ => result m c :=
  (dats m 0 c).arrAt_eq_of_cover 3 (fun _ => result m c) (flushed_eq m c) (covered)

/-- The program's result: the host reshape after the call views the [1, 1] array as a scalar, which holds `result`. -/
theorem tail_eq (c : Dev nD) :
    Pipeline.afterTail₀ cfgs (dats m) 0 (V0 m) [hostOps1] c main_v5 = fun _ => result m c := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.tc.devRef main_v4)
      = fun _ => result m c from (Pipeline.withArrays_arr spec0 launch0.win.arr_inj c _ _ 3).trans (final m c)]
  rfl

/-- The kernel's run, read: every weakly fair execution ends with the scalar result at `result` and the three
    arguments as launched (the input vector is a window's array, which the call only reads; the two big tables bypass the
    call and no host line writes them). -/
theorem run : θ_run defs (onTc (τ := τ) (main (F := Ideal))) ⟨m, fun _ => 0, ρ⟩ fun r => ∀ c : Dev nD,
      r.2.mem ((c.tc : Thread nD τ).loc main_v5) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Value

end Cert.KernelIdeal.Hand

end
-- ==== Proof.RefValue.lean ====
/-
  What the reference computes, at the extended reals.

  The reference takes the sine of the input, slices the last column of the coefficient table and adds each row's
  three coefficients, multiplies the two; it spells SiLU as  x · (1 / (1 + e^(−x)))  with the constant 1.0 splatted
  twice; adds, multiplies by the last weight column, and sums the 4096 products from zero. Since  1 / (1 + e^(−x))
  is the logistic function by definition, each product is the specification's row contribution of the input, the
  sliced weight column and the sliced coefficient block, and the result is their total.
-/
import proofs.«153209_j27101243638027_1_alg».proof.Proof.Gen.ReferenceIdeal.Read
import proofs.«153209_j27101243638027_1_alg».proof.Proof.Spec
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

/-- The reference's SiLU at a lane: the quotient 1 / (1 + e^(−x)) with both ones the pattern of 1.0 is the
    logistic function of the lane, so the stage is x · σ(x). -/
theorem silu_apply (x : (⟨S4096, .f32⟩ : BufTy).Contents (Elt Ideal)) (i : S4096.Idx) :
    val_main_v7 (F := Ideal) x i = x i * Ideal.logistic (x i) := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Cert.KanSpec.one_f32, Cert.KanSpec.logistic_eq]

/-- The position the reference's row sum reads for row `k`, coefficient `g`, is (k, g). -/
theorem idx_coeff (k : Fin 4096) (g : Fin 3) : idx_main_v3 (ix1 k) g = ix2 k g :=
  funext fun a => Fin.ext (by match a with | ⟨0, _⟩ => rfl | ⟨1, _⟩ => rfl)

/-- The reference's result is the specification's total of the input, the sliced weight column and the sliced
    coefficient block: the final sum starts from zero and runs over all rows; row `k`'s product is the column entry
    times (SiLU + sine · coefficient sum), the coefficient sum again starting from zero. -/
theorem result_eq (x : (⟨S4096, .f32⟩ : BufTy).Contents (Elt Ideal)) (W : (⟨S4096x8193, .f32⟩ : BufTy).Contents (Elt Ideal))
    (C : (⟨S4096x8193x3, .f32⟩ : BufTy).Contents (Elt Ideal)) (i : S_.Idx) :
    val_main_v10 (F := Ideal) x W C i = Cert.KanSpec.total x (val_main_v6 (F := Ideal) W) (val_main_v2 (F := Ideal) C) := by
  rw [val_main_v10_apply, val_main_cst_0_apply, Ideal.ofBits_def, Ideal.ofBits_zero_f32, zero_add, Cert.KanSpec.sum_idx1]
  unfold Cert.KanSpec.total
  refine Finset.sum_congr rfl fun k _ => ?_
  rw [val_main_v9_apply, val_main_v8_apply, silu_apply, val_main_v4_apply, val_main_v0_apply, val_main_v3_apply,
    val_main_cst_apply]
  simp only [Ideal.mulf_def, Ideal.addf_def, Ideal.hostUnary_sin_def, Ideal.ofBits_def, Ideal.ofBits_zero_f32, zero_add,
    idx_coeff]
  rfl

end Cert.ReferenceIdeal.RefValue

end
-- ==== Proof.lean ====
/-
  The kernel and its reference compute one number.

  Both programs take an input vector x of 4096 entries, a weight matrix and a coefficient table, and use only the
  last column of the two tables: with w the last weight column and c the last column's three coefficients per row,
  each returns
      Σ_i  w_i · ( x_i · σ(x_i)  +  sin(x_i) · (c_i0 + c_i1 + c_i2) ),        σ(t) = 1 / (1 + e^(−t)).
  The kernel slices the columns on the host and does all the arithmetic in one call, with the logistic function as one
  operation and both sums as lane reductions; the reference spells σ as the quotient 1 / (1 + e^(−x)), which is the
  logistic function by definition, and sums on the host. Every elementwise operation is applied to the same
  operands in the same order on both sides, and the sums are finite sums in a commutative monoid (the extended
  reals under addition), so the two results are equal for all inputs; the precondition is not used.

  Proof/Spec.lean states the number; Proof/KernelPayload.lean and Proof/KernelValue.lean read it off the kernel's
  run; Proof/RefValue.lean reads it off the reference's run. The idealization rewrote nothing, so `preserves` has
  nothing to state.
-/
import proofs.«153209_j27101243638027_1_alg».proof.Defs
import proofs.«153209_j27101243638027_1_alg».proof.Proof.Gen.Kernel
import proofs.«153209_j27101243638027_1_alg».proof.Proof.Gen.Kernel.Skeleton
import proofs.«153209_j27101243638027_1_alg».proof.Proof.Gen.Kernel.Launch
import proofs.«153209_j27101243638027_1_alg».proof.Proof.Gen.Kernel.Points
import proofs.«153209_j27101243638027_1_alg».proof.Proof.Gen.Kernel.Frame
import proofs.«153209_j27101243638027_1_alg».proof.Proof.Gen.KernelIdeal
import proofs.«153209_j27101243638027_1_alg».proof.Proof.Gen.KernelIdeal.Skeleton
import proofs.«153209_j27101243638027_1_alg».proof.Proof.Gen.KernelIdeal.Launch
import proofs.«153209_j27101243638027_1_alg».proof.Proof.Gen.KernelIdeal.Points
import proofs.«153209_j27101243638027_1_alg».proof.Proof.Gen.KernelIdeal.Frame
import proofs.«153209_j27101243638027_1_alg».proof.Proof.Gen.ReferenceIdeal
import proofs.«153209_j27101243638027_1_alg».proof.Proof.Gen.ReferenceIdeal.Run
import proofs.«153209_j27101243638027_1_alg».proof.Proof.Gen.ReferenceIdeal.Read
import proofs.«153209_j27101243638027_1_alg».proof.Proof.Gen.Pre_finite_inputs
import proofs.«153209_j27101243638027_1_alg».proof.Proof.Spec
import proofs.«153209_j27101243638027_1_alg».proof.Proof.KernelPayload
import proofs.«153209_j27101243638027_1_alg».proof.Proof.KernelValue
import proofs.«153209_j27101243638027_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the same scalar: the kernel's run leaves
    the specification's total of the input, the last weight column and the last coefficient block; the reference's run
    leaves a term that is the same total of the same three (the slices are the same operations of the same arrays). -/
theorem algebraic : Cert.algebraic_KernelIdeal_ReferenceIdeal := by
  intro m ρ m' ρ' _ hagree
  refine ⟨fun c => fun _ => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v10_eq]
  funext i
  rw [Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
